-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x64 : Shape := ⟨2, ![64, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x64 .f32) (main_arg3 : FVec F S64 .f32) (main_arg4 : FVec F S64x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x64 : Shape := ⟨2, ![64, 64]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x256 : Shape := ⟨2, ![5000, 256]⟩
abbrev S5000x64 : Shape := ⟨2, ![5000, 64]⟩
abbrev S3300000x64 : Shape := ⟨2, ![3300000, 64]⟩
abbrev S1x64 : Shape := ⟨2, ![1, 64]⟩

abbrev nBuf : Space → Nat
  | .hbm => 68
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S64_S1x64 : S64.ShapeCasts S1x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x64_S5000x64_1_0_0_1_n_n_wf : DotDims.WF S5000x256 S256x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x64 : Shape := ⟨2, ![64, 64]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 73
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x64_S100000x64_1_0_0_1_n_n_wf : DotDims.WF S100000x256 S256x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.HostReads.lean ====
/-
  The host operations of the kernel's program, read as functions.

  Between its two matrix products the kernel's program does on the host exactly what the reference does: it gathers
  the rows `h[src]` of the transformed features, scales each by the edge's normalisation, scatter-adds them into
  the target rows and adds the first bias. `aggregate` is that chain as ONE function of the transformed features
  `h`, the source and target index vectors, the normalisation vector and the bias; it is never opened: both
  programs apply it, and the certificate only shows that what goes into it is equal.
  The index vectors and the normalisation are computed from the edge list alone, before the first product, by the
  same operations in both programs: read off the kernel's first host stretches they are the reference's own stages
  of the edge list. The arguments are written by no host operation.
-/
import proofs.«177339_j71210557767875_1_alg».proof.Proof.Gen.KernelIdeal.Frame
import proofs.«177339_j71210557767875_1_alg».proof.Proof.RefRead
import Idealize.ShloMosaic.Lib.StableHlo.Run

set_option maxRecDepth 16384

noncomputable section

namespace Cert.Bridge

open Idealize.ShloMosaic Idealize.ShloMosaic.TcCoe Idealize.SL.Sem Idealize.ShloMosaic.StableHlo

variable {F : FTy → Type} [FloatOps F]

/-! ## The shared chain, and the reference's aggregated features as that chain -/

section Shared
open Cert.ReferenceIdeal Cert.ReferenceIdeal.Gen

/-- Gather `h` at the (wrapped) source indices, scale row `e` by `nrm e`, scatter-add into the target rows of a zero
    array, add the bias to every row. -/
def aggregate (h : (⟨S100000x64, .f32⟩ : BufTy).Contents (Elt F)) (src tgt : (⟨S3300000, .i32⟩ : BufTy).Contents (Elt F))
    (nrm : (⟨S3300000, .f32⟩ : BufTy).Contents (Elt F)) (bg : (⟨S64, .f32⟩ : BufTy).Contents (Elt F)) :
    (⟨S100000x64, .f32⟩ : BufTy).Contents (Elt F) :=
  (addf (Host.scatterAdd scatter_S100000x64_S3300000x1_S3300000x64_1_0_0_1 (broadcastInDim S100000x64 ![] bcast_S_S100000x64 (constant (F := F) S_ .f32 0x00000000#32)) (broadcastInDim S3300000x1 ![0] bcast_S3300000_S3300000x1_0 tgt) (mulf (Host.gather gather_S100000x64_S3300000x1_S3300000x64_1_0_n_n_0_1_164 h (broadcastInDim S3300000x1 ![0] bcast_S3300000_S3300000x1_0 (select (cmpi .slt src (broadcastInDim S3300000 ![] bcast_S_S3300000 (constantI S_ 32 0#32))) (addi src (broadcastInDim S3300000 ![] bcast_S_S3300000 (constantI S_ 32 100000#32))) src))) (broadcastInDim S3300000x64 ![0, 1] bcast_S3300000x1_S3300000x64_0_1 (broadcastInDim S3300000x1 ![0] bcast_S3300000_S3300000x1_0 nrm)))) (broadcastInDim S100000x64 ![0, 1] bcast_S1x64_S100000x64_0_1 (broadcastInDim S1x64 ![1] bcast_S64_S1x64_1 bg)))

open Cert.ReferenceIdeal.ReadP in
/-- The reference's aggregated features are the chain applied to its own product, index vectors and normalisation. -/
theorem ref_features (x0 : (⟨S100000x256, .f32⟩ : BufTy).Contents (Elt F)) (x1 : (⟨S2x3200000, .i32⟩ : BufTy).Contents (Elt F))
    (x2 : (⟨S256x64, .f32⟩ : BufTy).Contents (Elt F)) (x3 : (⟨S64, .f32⟩ : BufTy).Contents (Elt F)) :
    val_main_v46 (F := F) x0 x1 x2 x3
      = aggregate (val_main_v30 (F := F) x0 x2) (val_main_v5 (F := F) x1) (val_main_v6 (F := F) x1) (val_main_v29 (F := F) x1) x3 := rfl

end Shared

/-! ## The kernel's host stretches, from any contents `W` -/

section Kernel
open Cert.KernelIdeal Cert.KernelIdeal.Gen

set_option maxHeartbeats 2000000 in
/-- After the second host stretch the aggregated features are the chain applied to what the stretch found: the
    first region's result, the two index vectors, the normalisation and the bias. -/
theorem k_features (W : Valuation τ sig (Elt F)) :
    after (hostOps1 (F := F)) W (Proc.devRef .tc main_v46)
      = aggregate (W (Proc.devRef .tc main_v30)) (W (Proc.devRef .tc main_v5)) (W (Proc.devRef .tc main_v6)) (W (Proc.devRef .tc main_v29)) (W (Proc.devRef .tc main_arg3)) := by
  simp only [hostOps1]
  after_results
  rfl

set_option maxHeartbeats 2000000 in
/-- The second bias, laid out as a [1, 64] row for the second region. -/
theorem k_bias (W : Valuation τ sig (Elt F)) :
    after (hostOps1 (F := F)) W (Proc.devRef .tc main_v47) = shapeCast S1x64 (W (Proc.devRef .tc main_arg5)) shapeCasts_S64_S1x64 := by
  simp only [hostOps1]
  after_results
  rfl

set_option maxHeartbeats 2000000 in
/-- The second weight is not written by the second host stretch. -/
theorem k_keep4 (W : Valuation τ sig (Elt F)) :
    after (hostOps1 (F := F)) W (Proc.devRef .tc main_arg4) = W (Proc.devRef .tc main_arg4) := by
  simp only [hostOps1]
  after_results

set_option maxHeartbeats 2000000 in
/-- The source index vector (edge sources, then one self-loop per node) is the reference's stage of the edge list. -/
theorem pre_src (W : Valuation τ sig (Elt F)) :
    after (hostOps0_2 (F := F)) (after (hostOps0_1 (F := F)) (after (hostOps0 (F := F)) W)) (Proc.devRef .tc main_v5) = Cert.ReferenceIdeal.ReadP.val_main_v5 (F := F) (W (Proc.devRef .tc main_arg1)) := by
  simp only [hostOps0, hostOps0_1, hostOps0_2]
  after_results
  rfl

set_option maxHeartbeats 2000000 in
/-- The target index vector likewise. -/
theorem pre_tgt (W : Valuation τ sig (Elt F)) :
    after (hostOps0_2 (F := F)) (after (hostOps0_1 (F := F)) (after (hostOps0 (F := F)) W)) (Proc.devRef .tc main_v6) = Cert.ReferenceIdeal.ReadP.val_main_v6 (F := F) (W (Proc.devRef .tc main_arg1)) := by
  simp only [hostOps0, hostOps0_1, hostOps0_2]
  after_results
  rfl

set_option maxHeartbeats 4000000 in
/-- The edge normalisation `dinv[src] · dinv[tgt]` (degrees counted by a scatter-add of ones, `dinv` their inverse
    square root where positive) is the reference's stage of the edge list. -/
theorem pre_nrm (W : Valuation τ sig (Elt F)) :
    after (hostOps0_2 (F := F)) (after (hostOps0_1 (F := F)) (after (hostOps0 (F := F)) W)) (Proc.devRef .tc main_v29) = Cert.ReferenceIdeal.ReadP.val_main_v29 (F := F) (W (Proc.devRef .tc main_arg1)) := by
  simp only [hostOps0, hostOps0_1, hostOps0_2]
  after_results
  rfl

/-! The first host stretches write none of the float arguments. -/

set_option maxHeartbeats 2000000 in
theorem pre_keep0 (W : Valuation τ sig (Elt F)) : after (hostOps0_2 (F := F)) (after (hostOps0_1 (F := F)) (after (hostOps0 (F := F)) W)) (Proc.devRef .tc main_arg0) = W (Proc.devRef .tc main_arg0) := by
  simp only [hostOps0, hostOps0_1, hostOps0_2]
  after_results

set_option maxHeartbeats 2000000 in
theorem pre_keep2 (W : Valuation τ sig (Elt F)) : after (hostOps0_2 (F := F)) (after (hostOps0_1 (F := F)) (after (hostOps0 (F := F)) W)) (Proc.devRef .tc main_arg2) = W (Proc.devRef .tc main_arg2) := by
  simp only [hostOps0, hostOps0_1, hostOps0_2]
  after_results

set_option maxHeartbeats 2000000 in
theorem pre_keep3 (W : Valuation τ sig (Elt F)) : after (hostOps0_2 (F := F)) (after (hostOps0_1 (F := F)) (after (hostOps0 (F := F)) W)) (Proc.devRef .tc main_arg3) = W (Proc.devRef .tc main_arg3) := by
  simp only [hostOps0, hostOps0_1, hostOps0_2]
  after_results

set_option maxHeartbeats 2000000 in
theorem pre_keep4 (W : Valuation τ sig (Elt F)) : after (hostOps0_2 (F := F)) (after (hostOps0_1 (F := F)) (after (hostOps0 (F := F)) W)) (Proc.devRef .tc main_arg4) = W (Proc.devRef .tc main_arg4) := by
  simp only [hostOps0, hostOps0_1, hostOps0_2]
  after_results

set_option maxHeartbeats 2000000 in
theorem pre_keep5 (W : Valuation τ sig (Elt F)) : after (hostOps0_2 (F := F)) (after (hostOps0_1 (F := F)) (after (hostOps0 (F := F)) W)) (Proc.devRef .tc main_arg5) = W (Proc.devRef .tc main_arg5) := by
  simp only [hostOps0, hostOps0_1, hostOps0_2]
  after_results

end Kernel

end Cert.Bridge

end
-- ==== Proof.Region0.lean ====
/-
  Region 0 of the kernel's program: the node features times the first weight matrix, 5000 rows at a grid point.
  At the ideal instance a change of float format is the identity and the matrix unit's product into a zero
  accumulator is the plain sum over the contracted axis, so a point's block of the result is
  `∑ k, x[r, k] · w[k, q]` of that point's 5000 rows of `x` and the whole of `w`. The twenty row blocks tile the
  100000 rows, so the array the region leaves is the whole product `prodGcn x w` of the arrays it found.
-/
import proofs.«177339_j71210557767875_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Gcn

open Cert.KernelIdeal Cert.KernelIdeal.Gen
open Idealize.ShloMosaic Idealize.ShloMosaic.TcCoe Idealize.SL.Sem
open Idealize.ShloMosaic.Pipeline (Dat)

/-! ## The product as one function of the two arrays -/

/-- Entry `(row of i, k)` of the left matrix. -/
abbrev rowAt (i : S100000x64.Idx) (k : Fin 256) : S100000x256.Idx := fun a => match a with
  | ⟨0, _⟩ => ⟨(i 0).val, (i 0).isLt⟩
  | ⟨1, _⟩ => ⟨k.val, k.isLt⟩
/-- Entry `(k, column of i)` of the right matrix. -/
abbrev colAt (i : S100000x64.Idx) (k : Fin 256) : S256x64.Idx := fun a => match a with
  | ⟨0, _⟩ => ⟨k.val, k.isLt⟩
  | ⟨1, _⟩ => ⟨(i 1).val, (i 1).isLt⟩

/-- `x · w`, entry by entry: the sum over the 256 features. -/
def prodGcn (x : (⟨S100000x256, .f32⟩ : BufTy).Contents (Elt Ideal)) (w : (⟨S256x64, .f32⟩ : BufTy).Contents (Elt Ideal)) :
    (⟨S100000x64, .f32⟩ : BufTy).Contents (Elt Ideal) :=
  fun i => ∑ k : Fin 256, x (rowAt i k) * w (colAt i k)

/-! ## One block's payload at an index -/

/-- The same two index functions inside a block of 5000 rows. -/
abbrev blkRow (j : S5000x64.Idx) (k : Fin 256) : S5000x256.Idx := fun a => match a with
  | ⟨0, _⟩ => ⟨(j 0).val, (j 0).isLt⟩
  | ⟨1, _⟩ => ⟨k.val, k.isLt⟩
abbrev blkCol (j : S5000x64.Idx) (k : Fin 256) : S256x64.Idx := fun a => match a with
  | ⟨0, _⟩ => ⟨k.val, k.isLt⟩
  | ⟨1, _⟩ => ⟨(j 1).val, (j 1).isLt⟩

theorem lhs_blk_0 (j : S5000x64.Idx) (q : dot_S5000x256_S256x64_S5000x64_1_0_0_1_n_n.contr.Idx) :
    (dot_S5000x256_S256x64_S5000x64_1_0_0_1_n_n.lhsIdx j q 0).val = (j 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_blk_1 (j : S5000x64.Idx) (q : dot_S5000x256_S256x64_S5000x64_1_0_0_1_n_n.contr.Idx) :
    (dot_S5000x256_S256x64_S5000x64_1_0_0_1_n_n.lhsIdx j q 1).val = (q ⟨0, by decide⟩).val :=
  dot_S5000x256_S256x64_S5000x64_1_0_0_1_n_n.lhsIdx_val_of_single rfl j q
theorem rhs_blk_0 (j : S5000x64.Idx) (q : dot_S5000x256_S256x64_S5000x64_1_0_0_1_n_n.contr.Idx) :
    (dot_S5000x256_S256x64_S5000x64_1_0_0_1_n_n.rhsIdx j q 0).val = (q ⟨0, by decide⟩).val :=
  dot_S5000x256_S256x64_S5000x64_1_0_0_1_n_n.rhsIdx_val_of_single rfl j q
theorem rhs_blk_1 (j : S5000x64.Idx) (q : dot_S5000x256_S256x64_S5000x64_1_0_0_1_n_n.contr.Idx) :
    (dot_S5000x256_S256x64_S5000x64_1_0_0_1_n_n.rhsIdx j q 1).val = (j 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The body's stored value at entry `j` of a block: the sum over the features of the block's row times the
    weight's column (the two format changes are the identity on extended reals, the accumulator is zero). -/
theorem pay_apply (x0 : Vec Ideal S5000x256 .f32) (x1 : Vec Ideal S256x64 .f32) (j : S5000x64.Idx) :
    k0_pay1 (F := Ideal) x0 x1 j = ∑ k : Fin 256, x0 (blkRow j k) * x1 (blkCol j k) := by
  unfold k0_pay1
  simp only [matmul]
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx j ((ValueIdx.contrEquiv1 dot_S5000x256_S256x64_S5000x64_1_0_0_1_n_n 256 rfl rfl).symm k) = blkRow j k := funext fun a => Fin.ext (by
    match a with
    | ⟨0, _⟩ => exact lhs_blk_0 _ _
    | ⟨1, _⟩ => exact (lhs_blk_1 _ _).trans hk)
  have er : dot_S5000x256_S256x64_S5000x64_1_0_0_1_n_n.rhsIdx j ((ValueIdx.contrEquiv1 dot_S5000x256_S256x64_S5000x64_1_0_0_1_n_n 256 rfl rfl).symm k) = blkCol j k := funext fun a => Fin.ext (by
    match a with
    | ⟨0, _⟩ => exact (rhs_blk_0 _ _).trans hk
    | ⟨1, _⟩ => exact rhs_blk_1 _ _)
  rw [el, er]
  rfl

/-! ## From blocks to the array -/

variable (V : (c : Dev nD) → (b : Ref sig .tc) → Buf (Elt Ideal) ((c : Thread nD τ).loc b))

theorem offsets_zero : (![0, 0] : Fin 2 → Nat) = fun _ => 0 := funext fun a => by fin_cases a <;> rfl

/-- The three windows' block indices at a grid point: the rows of `x` move with the rows of the result, the
    weight is one block, and neither the features nor the columns are cut. -/
theorem block_indices : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every one of the twenty row blocks is some grid point's. -/
theorem block_onto : ∀ q0 : Fin 20, ∃ t : Fin cfg0.N, win0_2.index t = ![q0.val, 0] :=
  (by decide +kernel : ∀ q0 : Fin 20, ∃ t : Fin grid0.N, win0_2.index t = ![q0.val, 0])

/-- A point's sum over its own rows of `x` and the whole weight is the whole product read at the point's block:
    row `r` of block `b` is row `5000 b + r` of the array. -/
theorem block_sum (xa : (⟨S100000x256, .f32⟩ : BufTy).Contents (Elt Ideal)) (wa : (⟨S256x64, .f32⟩ : BufTy).Contents (Elt Ideal))
    (t : Fin cfg0.N) (j : S5000x64.Idx) :
    ∑ k : Fin 256, xa (((cfg0.win 0).blk t).view.emb (blkRow j k)) * wa (((cfg0.win 1).blk t).view.emb (blkCol j k))
      = prodGcn xa wa (((cfg0.win 2).blk t).view.emb j) := by
  obtain ⟨e0, e1, e2, e3, e4⟩ := block_indices t
  unfold prodGcn
  refine Finset.sum_congr rfl fun k _ => ?_
  have h0 : ((cfg0.win 0).blk t).view.emb (blkRow j k) = rowAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (blkCol j k) = colAt (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega
  rw [h0, h1]

/-- What grid point `t` writes back is block `t` of the whole product of the arrays the region found. -/
theorem flushed_eq (c : Dev nD) (t : Fin cfg0.N) :
    (dat0 V c).flushed 2 t = ((cfg0.win 2).blk t).view.read (Elt Ideal) (prodGcn (V c main_arg0) (V c main_arg2)) := by
  show (cfg0.win 2).cut (grid0.coords t) ((dat0 V c).after 2 t) = _
  rw [after0_2]
  unfold out0_2
  rw [View.canon_unit_zero offsets_zero]
  simp only [View.ld_unit_zero (S := S5000x256) offsets_zero, View.ld_unit_zero (S := S256x64) offsets_zero]
  funext j
  show k0_pay1 (iblk0 V c 0 t) (iblk0 V c 1 t) j = prodGcn (V c main_arg0) (V c main_arg2) (((cfg0.win 2).blk t).view.emb j)
  refine (pay_apply (iblk0 V c 0 t) (iblk0 V c 1 t) j).trans ?_
  exact block_sum (V c main_arg0) (V c main_arg2) t j

/-- An index is in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Row `r` lies in the block of point `r / 5000`: the blocks cover the array. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The array region 0 leaves: the whole product of the two arrays it found. -/
theorem final (c : Dev nD) : (dat0 V c).arrAt 2 cfg0.N = prodGcn (V c main_arg0) (V c main_arg2) :=
  (dat0 V c).arrAt_eq_of_cover 2 _ (fun t _ => flushed_eq V c t) covered

end Cert.KernelIdeal.Gcn

end
-- ==== Proof.Region1.lean ====
/-
  Region 1 of the kernel's program: `max(a, 0)` of the aggregated features times the second weight matrix, plus
  the bias row, 5000 rows at a grid point. At the ideal instance the format changes are the identity and the matrix
  unit's product into a zero accumulator is the plain sum over the 64 contracted features; the bias, a [1, 64] row,
  is repeated down the rows. The twenty row blocks tile the 100000 rows, so the array the region leaves is
  `reluLin a w b` of the three arrays it found.
-/
import proofs.«177339_j71210557767875_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Lin

open Cert.KernelIdeal Cert.KernelIdeal.Gen
open Idealize.ShloMosaic Idealize.ShloMosaic.TcCoe Idealize.SL.Sem
open Idealize.ShloMosaic.Pipeline (Dat)

/-! ## The layer as one function of the three arrays -/

/-- Entry `(row of i, k)` of the aggregated features. -/
abbrev featAt (i : S100000x64.Idx) (k : Fin 64) : S100000x64.Idx := fun a => match a with
  | ⟨0, _⟩ => ⟨(i 0).val, (i 0).isLt⟩
  | ⟨1, _⟩ => ⟨k.val, k.isLt⟩
/-- Entry `(k, column of i)` of the weight. -/
abbrev weightAt (i : S100000x64.Idx) (k : Fin 64) : S64x64.Idx := fun a => match a with
  | ⟨0, _⟩ => ⟨k.val, k.isLt⟩
  | ⟨1, _⟩ => ⟨(i 1).val, (i 1).isLt⟩
/-- Entry `(0, column of i)` of the bias row. -/
abbrev biasAt (i : S100000x64.Idx) : S1x64.Idx := fun a => match a with
  | ⟨0, _⟩ => ⟨0, Nat.zero_lt_one⟩
  | ⟨1, _⟩ => ⟨(i 1).val, (i 1).isLt⟩

/-- `max(a, 0) · w + b`, entry by entry (the zero is the float word `0x00000000` read at the ideal instance). -/
def reluLin (a : (⟨S100000x64, .f32⟩ : BufTy).Contents (Elt Ideal)) (w : (⟨S64x64, .f32⟩ : BufTy).Contents (Elt Ideal))
    (b : (⟨S1x64, .f32⟩ : BufTy).Contents (Elt Ideal)) : (⟨S100000x64, .f32⟩ : BufTy).Contents (Elt Ideal) :=
  fun i => (∑ k : Fin 64, max (a (featAt i k)) (Ideal.ofBits .f32 0x00000000#32) * w (weightAt i k)) + b (biasAt i)

/-! ## One block's payload at an index -/

abbrev blkFeat (j : S5000x64.Idx) (k : Fin 64) : S5000x64.Idx := fun a => match a with
  | ⟨0, _⟩ => ⟨(j 0).val, (j 0).isLt⟩
  | ⟨1, _⟩ => ⟨k.val, k.isLt⟩
abbrev blkWeight (j : S5000x64.Idx) (k : Fin 64) : S64x64.Idx := fun a => match a with
  | ⟨0, _⟩ => ⟨k.val, k.isLt⟩
  | ⟨1, _⟩ => ⟨(j 1).val, (j 1).isLt⟩
abbrev blkBias (j : S5000x64.Idx) : S1x64.Idx := fun a => match a with
  | ⟨0, _⟩ => ⟨0, Nat.zero_lt_one⟩
  | ⟨1, _⟩ => ⟨(j 1).val, (j 1).isLt⟩

theorem lhs_blk_0 (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_blk_1 (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
theorem rhs_blk_0 (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
theorem rhs_blk_1 (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's stored value at entry `j` of a block: the sum over the 64 features of `max(·, 0)` of the block's
    row times the weight's column, plus the bias at the column. -/
theorem pay_apply (x0 : Vec Ideal S5000x64 .f32) (x1 : Vec Ideal S64x64 .f32) (x2 : Vec Ideal S1x64 .f32) (j : S5000x64.Idx) :
    k1_pay1 (F := Ideal) x0 x1 x2 j
      = (∑ k : Fin 64, max (x0 (blkFeat j k)) (Ideal.ofBits .f32 0x00000000#32) * x1 (blkWeight j k)) + x2 (blkBias j) := by
  unfold k1_pay1
  rw [shapeCast_self, shapeCast_self]
  simp only [addf, matmul, Ideal.addf_def]
  rw [Ideal.matmul_constant_zero_apply, ← Equiv.sum_comp (ValueIdx.contrEquiv1 dot_S5000x64_S64x64_S5000x64_1_0_0_1_n_n 64 rfl rfl).symm]
  rw [broadcastTo_apply x2 broadcasts_S1x64_S5000x64 j (blkBias j) (fun a => by
    match a with
    | ⟨0, _⟩ => rfl
    | ⟨1, _⟩ => rfl)]
  refine congrArg (· + x2 (blkBias j)) (Finset.sum_congr rfl fun k _ => ?_)
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = blkFeat j k := funext fun a => Fin.ext (by
    match a with
    | ⟨0, _⟩ => exact lhs_blk_0 _ _
    | ⟨1, _⟩ => exact (lhs_blk_1 _ _).trans hk)
  have er : dot_S5000x64_S64x64_S5000x64_1_0_0_1_n_n.rhsIdx j ((ValueIdx.contrEquiv1 dot_S5000x64_S64x64_S5000x64_1_0_0_1_n_n 64 rfl rfl).symm k) = blkWeight j k := funext fun a => Fin.ext (by
    match a with
    | ⟨0, _⟩ => exact (rhs_blk_0 _ _).trans hk
    | ⟨1, _⟩ => exact rhs_blk_1 _ _)
  rw [el, er]
  rfl

/-! ## From blocks to the array -/

variable (V : (c : Dev nD) → (b : Ref sig .tc) → Buf (Elt Ideal) ((c : Thread nD τ).loc b))

theorem offsets_zero : (![0, 0] : Fin 2 → Nat) = fun _ => 0 := funext fun a => by fin_cases a <;> rfl

/-- The four windows' block indices at a grid point: the rows of the features move with the rows of the result,
    the weight and the bias row are one block each, and the columns are not cut. -/
theorem block_indices : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0 ∧ win1_3.index t (1 : Fin 2) = 0 :=
  (by decide +kernel : ∀ t : Fin grid1.N, _)

/-- Every one of the twenty row blocks is some grid point's. -/
theorem block_onto : ∀ q0 : Fin 20, ∃ t : Fin cfg1.N, win1_3.index t = ![q0.val, 0] :=
  (by decide +kernel : ∀ q0 : Fin 20, ∃ t : Fin grid1.N, win1_3.index t = ![q0.val, 0])

/-- A point's value over its own rows of the features, the whole weight and the bias row is the whole layer read
    at the point's block: row `r` of block `b` is row `5000 b + r` of the array. -/
theorem block_value (aa : (⟨S100000x64, .f32⟩ : BufTy).Contents (Elt Ideal)) (wa : (⟨S64x64, .f32⟩ : BufTy).Contents (Elt Ideal))
    (ba : (⟨S1x64, .f32⟩ : BufTy).Contents (Elt Ideal)) (t : Fin cfg1.N) (j : S5000x64.Idx) :
    (∑ k : Fin 64, max (aa (((cfg1.win 0).blk t).view.emb (blkFeat j k))) (Ideal.ofBits .f32 0x00000000#32) * wa (((cfg1.win 1).blk t).view.emb (blkWeight j k)))
        + ba (((cfg1.win 2).blk t).view.emb (blkBias j))
      = reluLin aa wa ba (((cfg1.win 3).blk t).view.emb j) := by
  obtain ⟨e0, e1, e2, e3, e4, e5, e6⟩ := block_indices t
  unfold reluLin
  have h2 : ((cfg1.win 2).blk t).view.emb (blkBias j) = biasAt (((cfg1.win 3).blk t).view.emb j) := by
    funext a; apply Fin.ext
    match a with
    | ⟨0, _⟩ => show win1_2.index t (0 : Fin 2) * 1 + 1 * 0 = 0; omega
    | ⟨1, _⟩ => show win1_2.index t (1 : Fin 2) * 64 + 1 * (j 1).val = win1_3.index t (1 : Fin 2) * 64 + 1 * (j 1).val; omega
  rw [h2]
  refine congrArg (· + ba (biasAt (((cfg1.win 3).blk t).view.emb j))) (Finset.sum_congr rfl fun k _ => ?_)
  have h0 : ((cfg1.win 0).blk t).view.emb (blkFeat j k) = featAt (((cfg1.win 3).blk t).view.emb j) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  have h1 : ((cfg1.win 1).blk t).view.emb (blkWeight j k) = weightAt (((cfg1.win 3).blk t).view.emb j) k := by
    funext a; apply Fin.ext
    match a with
    | ⟨0, _⟩ => show win1_1.index t (0 : Fin 2) * 64 + 1 * k.val = k.val; omega
    | ⟨1, _⟩ => show win1_1.index t (1 : Fin 2) * 64 + 1 * (j 1).val = win1_3.index t (1 : Fin 2) * 64 + 1 * (j 1).val; omega
  rw [h0, h1]

/-- What grid point `t` writes back is block `t` of the whole layer of the arrays the region found. -/
theorem flushed_eq (c : Dev nD) (t : Fin cfg1.N) :
    (dat1 V c).flushed 3 t = ((cfg1.win 3).blk t).view.read (Elt Ideal) (reluLin (V c main_v46) (V c main_arg4) (V c main_v47)) := by
  show (cfg1.win 3).cut (grid1.coords t) ((dat1 V c).after 3 t) = _
  rw [after1_3]
  unfold out1_3
  rw [View.canon_unit_zero offsets_zero]
  simp only [View.ld_unit_zero (S := S5000x64) offsets_zero, View.ld_unit_zero (S := S64x64) offsets_zero, View.ld_unit_zero (S := S1x64) offsets_zero]
  funext j
  show k1_pay1 (iblk1 V c 0 t) (iblk1 V c 1 t) (iblk1 V c 2 t) j = reluLin (V c main_v46) (V c main_arg4) (V c main_v47) (((cfg1.win 3).blk t).view.emb j)
  refine (pay_apply (iblk1 V c 0 t) (iblk1 V c 1 t) (iblk1 V c 2 t) j).trans ?_
  exact block_value (V c main_v46) (V c main_arg4) (V c main_v47) t j

/-- An index is in point `t`'s block iff each coordinate is in the block's range on its axis. -/
theorem mem_block (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v48).slice (win1_3.rect t)).set ↔ _
  rw [View.set_slice_whole, Rect.mem_set_unit]
  exact Iff.rfl

/-- Row `r` lies in the block of point `r / 5000`: the blocks cover the array. -/
theorem covered (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := block_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The array region 1 leaves: the whole layer of the three arrays it found. -/
theorem final (c : Dev nD) : (dat1 V c).arrAt 3 cfg1.N = reluLin (V c main_v46) (V c main_arg4) (V c main_v47) :=
  (dat1 V c).arrAt_eq_of_cover 3 _ (fun t _ => flushed_eq V c t) covered

end Cert.KernelIdeal.Lin

end
-- ==== Proof.Bridge.lean ====
/-
  The kernel's result and the reference's result are one function of the six arguments.

  The kernel's program, read from its last array backwards: the second region leaves `max(a, 0) · W_lin + b_lin` of
  the aggregated features `a` it found (`Lin.final`); `a` is the shared host chain `aggregate` applied to the
  first region's result, the index vectors, the normalisation and the first bias (`k_features`); the first region
  leaves the whole product `x · W_gcn` (`Gcn.final`); the index vectors and the normalisation are the reference's
  own stages of the edge list, and no argument is written on the way. That is `kernelOut`.
  The reference computes the same three pieces with `dot_general` for the two products, which at the ideal
  instance are the same sums over the contracted axis; the chain between them is applied to equal inputs and is
  never opened. No law of arithmetic is needed beyond that, so finiteness of the inputs is not used.
-/
import proofs.«177339_j71210557767875_1_alg».proof.Proof.HostReads
import proofs.«177339_j71210557767875_1_alg».proof.Proof.Region0
import proofs.«177339_j71210557767875_1_alg».proof.Proof.Region1

set_option maxRecDepth 16384

noncomputable section

namespace Cert.Bridge

open Idealize.ShloMosaic Idealize.ShloMosaic.TcCoe Idealize.SL.Sem Idealize.ShloMosaic.StableHlo

/-! ## The kernel's result as one function of the arguments -/

section KernelValue
open Cert.KernelIdeal Cert.KernelIdeal.Gen

/-- `max(aggregate(x · W_gcn, …), 0) · W_lin + b_lin`, the bias laid out as a [1, 64] row. -/
def kernelOut (x0 : (⟨S100000x256, .f32⟩ : BufTy).Contents (Elt Ideal)) (x1 : (⟨S2x3200000, .i32⟩ : BufTy).Contents (Elt Ideal)) (x2 : (⟨S256x64, .f32⟩ : BufTy).Contents (Elt Ideal))
    (x3 : (⟨S64, .f32⟩ : BufTy).Contents (Elt Ideal)) (x4 : (⟨S64x64, .f32⟩ : BufTy).Contents (Elt Ideal)) (x5 : (⟨S64, .f32⟩ : BufTy).Contents (Elt Ideal)) : (⟨S100000x64, .f32⟩ : BufTy).Contents (Elt Ideal) :=
  Lin.reluLin (aggregate (Gcn.prodGcn x0 x2) (Cert.ReferenceIdeal.ReadP.val_main_v5 x1) (Cert.ReferenceIdeal.ReadP.val_main_v6 x1) (Cert.ReferenceIdeal.ReadP.val_main_v29 x1) x3) x4
    (shapeCast S1x64 x5 shapeCasts_S64_S1x64)

variable (m : (ℓ : Loc nD τ sig) → Buf (Elt Ideal) ℓ) (ρ : Dev nD → PrngReg)

/-- What the first region finds at its two arrays is what was launched. -/
theorem entry0_x (c : Dev nD) : V3 m ρ c main_arg0 = m ((c : Thread nD τ).loc main_arg0) := pre_keep0 (W0 m ρ c)
theorem entry0_w (c : Dev nD) : V3 m ρ c main_arg2 = m ((c : Thread nD τ).loc main_arg2) := pre_keep2 (W0 m ρ c)

/-- The first region leaves the whole product of the launched `x` and `W_gcn`. -/
theorem exit0_h (c : Dev nD) :
    W4 m ρ c (Proc.devRef .tc main_v30) = Gcn.prodGcn (m ((c : Thread nD τ).loc main_arg0)) (m ((c : Thread nD τ).loc main_arg2)) := by
  refine ((W4_arr m ρ c 2).trans (Gcn.final (V3 m ρ) c)).trans ?_
  rw [entry0_x, entry0_w]

/-- What the second region finds at its first array: the shared chain of the first region's result, the reference's
    stages of the edge list, and the first bias. -/
theorem entry1_a (c : Dev nD) :
    V5 m ρ c main_v46 = aggregate (Gcn.prodGcn (m ((c : Thread nD τ).loc main_arg0)) (m ((c : Thread nD τ).loc main_arg2)))
      (Cert.ReferenceIdeal.ReadP.val_main_v5 (m ((c : Thread nD τ).loc main_arg1))) (Cert.ReferenceIdeal.ReadP.val_main_v6 (m ((c : Thread nD τ).loc main_arg1)))
      (Cert.ReferenceIdeal.ReadP.val_main_v29 (m ((c : Thread nD τ).loc main_arg1))) (m ((c : Thread nD τ).loc main_arg3)) := by
  refine (k_features (W4 m ρ c)).trans ?_
  have hs : W4 m ρ c (Proc.devRef .tc main_v5) = Cert.ReferenceIdeal.ReadP.val_main_v5 (m ((c : Thread nD τ).loc main_arg1)) :=
    (W4_of_ne m ρ c main_v5 (by decide)).trans (pre_src (W0 m ρ c))
  have ht : W4 m ρ c (Proc.devRef .tc main_v6) = Cert.ReferenceIdeal.ReadP.val_main_v6 (m ((c : Thread nD τ).loc main_arg1)) :=
    (W4_of_ne m ρ c main_v6 (by decide)).trans (pre_tgt (W0 m ρ c))
  have hn : W4 m ρ c (Proc.devRef .tc main_v29) = Cert.ReferenceIdeal.ReadP.val_main_v29 (m ((c : Thread nD τ).loc main_arg1)) :=
    (W4_of_ne m ρ c main_v29 (by decide)).trans (pre_nrm (W0 m ρ c))
  have hb : W4 m ρ c (Proc.devRef .tc main_arg3) = m ((c : Thread nD τ).loc main_arg3) :=
    (W4_of_ne m ρ c main_arg3 (by decide)).trans (pre_keep3 (W0 m ρ c))
  rw [exit0_h, hs, ht, hn, hb]

theorem entry1_w (c : Dev nD) : V5 m ρ c main_arg4 = m ((c : Thread nD τ).loc main_arg4) :=
  (k_keep4 (W4 m ρ c)).trans ((W4_of_ne m ρ c main_arg4 (by decide)).trans (pre_keep4 (W0 m ρ c)))

theorem entry1_b (c : Dev nD) : V5 m ρ c main_v47 = shapeCast S1x64 (m ((c : Thread nD τ).loc main_arg5)) shapeCasts_S64_S1x64 := by
  refine (k_bias (W4 m ρ c)).trans ?_
  rw [(W4_of_ne m ρ c main_arg5 (by decide)).trans (pre_keep5 (W0 m ρ c))]

/-- The result array at the end of the run is `kernelOut` of the launched arguments. -/
theorem result_eq (c : Dev nD) :
    W6 m ρ c (Proc.devRef .tc main_v48)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine ((W6_arr m ρ c 3).trans (Lin.final (V5 m ρ) c)).trans ?_
  rw [entry1_a, entry1_w, entry1_b]
  rfl

end KernelValue

/-! ## The reference's last stage is the same function -/

section Reference
open Cert.ReferenceIdeal Cert.ReferenceIdeal.Gen Cert.ReferenceIdeal.ReadP

/-- The reference's first product, entry by entry, is the kernel's. -/
theorem ref_prod (x0 : (⟨S100000x256, .f32⟩ : BufTy).Contents (Elt Ideal)) (x2 : (⟨S256x64, .f32⟩ : BufTy).Contents (Elt Ideal)) :
    val_main_v30 (F := Ideal) x0 x2 = Cert.KernelIdeal.Gcn.prodGcn x0 x2 := by
  funext i
  rw [val_main_v30_apply]
  unfold Cert.KernelIdeal.Gcn.prodGcn
  refine Finset.sum_congr rfl fun k _ => ?_
  have e1 : lidx_main_v30 i k = Cert.KernelIdeal.Gcn.rowAt i k := funext fun a => by
    match a with
    | ⟨0, _⟩ => rfl
    | ⟨1, _⟩ => rfl
  have e2 : ridx_main_v30 i k = Cert.KernelIdeal.Gcn.colAt i k := funext fun a => by
    match a with
    | ⟨0, _⟩ => rfl
    | ⟨1, _⟩ => rfl
  rw [e1, e2]

/-- The reference's result is `kernelOut` of its arguments: the second product and the bias read at an index, the
    relu's zero the same float word, the aggregated features equal as whole arrays. -/
theorem ref_eq (x0 : (⟨S100000x256, .f32⟩ : BufTy).Contents (Elt Ideal)) (x1 : (⟨S2x3200000, .i32⟩ : BufTy).Contents (Elt Ideal)) (x2 : (⟨S256x64, .f32⟩ : BufTy).Contents (Elt Ideal))
    (x3 : (⟨S64, .f32⟩ : BufTy).Contents (Elt Ideal)) (x4 : (⟨S64x64, .f32⟩ : BufTy).Contents (Elt Ideal)) (x5 : (⟨S64, .f32⟩ : BufTy).Contents (Elt Ideal)) :
    val_main_v51 (F := Ideal) x0 x1 x2 x3 x4 x5 = kernelOut x0 x1 x2 x3 x4 x5 := by
  have hA : val_main_v46 (F := Ideal) x0 x1 x2 x3
      = aggregate (Cert.KernelIdeal.Gcn.prodGcn x0 x2) (val_main_v5 x1) (val_main_v6 x1) (val_main_v29 x1) x3 := by
    rw [ref_features, ref_prod]
  funext i
  rw [val_main_v51_apply, val_main_v48_apply, val_main_v50_apply, val_main_v49_apply]
  unfold kernelOut Cert.KernelIdeal.Lin.reluLin
  have hb : shapeCast Cert.KernelIdeal.S1x64 x5 Cert.KernelIdeal.Gen.shapeCasts_S64_S1x64 (Cert.KernelIdeal.Lin.biasAt i)
      = x5 (idx_main_v49 (idx_main_v50 i)) :=
    shapeCast_apply x5 _ (Cert.KernelIdeal.Lin.biasAt i) (idx_main_v49 (idx_main_v50 i)) (by
      rw [Shape.rowMajor_val_one, Shape.rowMajor_val_two]
      show (i 1).val = 0 * 64 + (i 1).val
      omega)
  rw [hb]
  refine congrArg (· + x5 (idx_main_v49 (idx_main_v50 i))) (Finset.sum_congr rfl fun k _ => ?_)
  rw [val_main_v47_apply, hA, val_main_call1_v0_apply, val_main_call1_cst_apply]
  have e1 : lidx_main_v48 i k = Cert.KernelIdeal.Lin.featAt i k := funext fun a => by
    match a with
    | ⟨0, _⟩ => rfl
    | ⟨1, _⟩ => rfl
  have e2 : ridx_main_v48 i k = Cert.KernelIdeal.Lin.weightAt i k := funext fun a => by
    match a with
    | ⟨0, _⟩ => rfl
    | ⟨1, _⟩ => rfl
  rw [e1, e2]
  rfl

end Reference

end Cert.Bridge

end
-- ==== Proof.lean ====
/-
  A two-layer graph convolution: `out = max(agg, 0) · W_lin + b_lin` with
  `agg = scatter_add(tgt, (x · W_gcn)[src] · norm) + b_gcn`, the index vectors and the symmetric degree normalisation
  computed from the edge list. The kernel's program runs the two dense products as tiled matrix-unit kernels
  (5000 rows a grid point, operands narrowed to bf16) and everything between them on the host; the reference runs
  the same host operations around two `dot_general`s.

  Over the extended reals a change of float format is the identity and both kinds of product are the plain sum over
  the contracted axis, so the two programs compute one function of the six arguments (`Cert.Bridge.kernelOut`):
  the kernel's result array is read off its run region by region (Proof/Region0, Proof/Region1, Proof/HostReads,
  Proof/Bridge over the run of Proof/KLaunch), the reference's off its run (Proof/RefRun, Proof/RefRead), and the
  host chain the two share is carried as one function applied to equal inputs. No algebraic law is used, so the
  precondition (finite inputs) is never opened. The idealization rewrote nothing: `preserves` is `True`.
-/
import proofs.«177339_j71210557767875_1_alg».proof.Defs
import proofs.«177339_j71210557767875_1_alg».proof.Proof.Gen.Kernel
import proofs.«177339_j71210557767875_1_alg».proof.Proof.Gen.Kernel.Skeleton
import proofs.«177339_j71210557767875_1_alg».proof.Proof.Gen.Kernel.Launch
import proofs.«177339_j71210557767875_1_alg».proof.Proof.Gen.Kernel.Points
import proofs.«177339_j71210557767875_1_alg».proof.Proof.Gen.Kernel.Frame
import proofs.«177339_j71210557767875_1_alg».proof.Proof.Gen.KernelIdeal
import proofs.«177339_j71210557767875_1_alg».proof.Proof.Gen.KernelIdeal.Skeleton
import proofs.«177339_j71210557767875_1_alg».proof.Proof.Gen.KernelIdeal.Launch
import proofs.«177339_j71210557767875_1_alg».proof.Proof.Gen.KernelIdeal.Points
import proofs.«177339_j71210557767875_1_alg».proof.Proof.Gen.KernelIdeal.Frame
import proofs.«177339_j71210557767875_1_alg».proof.Proof.Gen.ReferenceIdeal
import proofs.«177339_j71210557767875_1_alg».proof.Proof.Gen.Pre_finite_inputs
import proofs.«177339_j71210557767875_1_alg».proof.Proof.KLaunch
import proofs.«177339_j71210557767875_1_alg».proof.Proof.RefRun
import proofs.«177339_j71210557767875_1_alg».proof.Proof.RefRead
import proofs.«177339_j71210557767875_1_alg».proof.Proof.Bridge
import Idealize.ShloMosaic.Adequacy
import Idealize.ShloMosaic.Init

noncomputable section

namespace Cert.Proof

open Idealize.ShloMosaic Idealize.SL.Sem

/-- The word-level kernel program terminates without a fault and keeps its arguments: the generated frame. -/
theorem frame_kernel : Cert.frame_Kernel := fun m ρ _ => Cert.Kernel.Gen.frame m ρ

/-- The same for its idealization. -/
theorem frame_kernelIdeal : Cert.frame_KernelIdeal := fun m ρ _ => Cert.KernelIdeal.Gen.frame m ρ

/-- The reference's run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result at `kernelOut` of the arguments: the kernel's by `Bridge.result_eq` over its run
    with the result array named, the reference's by `Bridge.ref_eq` over its run, the arguments agreeing. -/
theorem algebraic : Cert.algebraic_KernelIdeal_ReferenceIdeal := by
  intro m ρ m' ρ' _ hagree
  refine ⟨fun c => Cert.Bridge.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Bridge.result_eq m ρ c), (h c).2⟩) (Cert.KernelIdeal.Named.run_named m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v51_eq, (hagree c).1, (hagree c).2.1, (hagree c).2.2.1, (hagree c).2.2.2.1,
      (hagree c).2.2.2.2.1, (hagree c).2.2.2.2.2]
    exact Cert.Bridge.ref_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
